-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 85
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Layer.lean ====
/-
  One graph-convolution layer as the reference computes it, with its pieces named.

  Both programs build, from the edge list `e : i32[2, 1600000]`, the source and destination node of every edge with one
  self loop per node appended (1 700 000 edges), the in-degree `deg` of every node (a scatter-add of ones), its inverse
  square root where the degree is positive, and the edge weight `norm = dinv[src] · dinv[dst]`. A layer takes node features
  `h : f32[100000, 64]`, gathers `h[src]`, scales each gathered row by its edge's weight and scatter-adds the rows at `dst`:
  `aggregate h e`. It is stated over the reference's own stages (the generated reading of its run), so that it is by
  definition what the reference does; the kernel's program applies the same host operations, and meets this term
  structurally (same operations, same literals), never by opening a gather or a scatter.

  The dense pieces: `dense x W = x · W` (the host's dot_general), `biasRelu a b = max (a + b) 0` with the bias row
  broadcast down the nodes, `biasRes a b x = (a + b) + x`.

  `model_eq`: the reference's result is
  `biasRes (aggregate (dense (biasRelu (aggregate (dense x W₁) e) b₁) W₂) e) b₂ x`.
  The second layer recomputes the degree and the weights from `e`; those stages are the first layer's, operation by
  operation (`norm_again`).
-/
import proofs.«110208_j5153960755351_1_alg».proof.Proof.RefRead

noncomputable section

namespace Cert.ReferenceIdeal.Layer

open Cert.ReferenceIdeal Cert.ReferenceIdeal.Gen Cert.ReferenceIdeal.ReadP Idealize.ShloMosaic Idealize.ShloMosaic.TcCoe

variable {F : FTy → Type} [FloatOps F]

/-- Node features, the edge list, a weight matrix, a bias row: the arrays' contents. -/
abbrev Feat (F : FTy → Type) [FloatOps F] := (⟨S100000x64, .f32⟩ : BufTy).Contents (Elt F)
abbrev Edges (F : FTy → Type) [FloatOps F] := (⟨S2x1600000, .i32⟩ : BufTy).Contents (Elt F)
abbrev Wt (F : FTy → Type) [FloatOps F] := (⟨S64x64, .f32⟩ : BufTy).Contents (Elt F)
abbrev Bias (F : FTy → Type) [FloatOps F] := (⟨S64, .f32⟩ : BufTy).Contents (Elt F)

/-- Gather the features at every edge's source, scale each row by the edge's weight, add the rows up at the edge's
    destination (from zero). The index arrays, the weights and the zero array are the reference's stages of `e`. -/
def aggregate (h : Feat F) (e : Edges F) : Feat F :=
  Host.scatterAdd scatter_S100000x64_S1700000x1_S1700000x64_1_0_0_1 (val_main_v43 (F := F)) (val_main_v44 (F := F) e)
    (mulf (Host.gather gather_S100000x64_S1700000x1_S1700000x64_1_0_n_n_0_1_164 h (val_main_v38 (F := F) e)) (val_main_v41 (F := F) e))

/-- The node-wise linear map `x · W`. -/
def dense (x : Feat F) (W : Wt F) : Feat F := val_main_v7 (F := F) x W

/-- `max (a + b) 0`, the bias row `b` broadcast down the nodes. -/
def biasRelu (a : Feat F) (b : Bias F) : Feat F := maximumf (addf a (val_main_v47 (F := F) b)) (val_main_call1_v0 (F := F))

/-- `(a + b) + x`, the bias row `b` broadcast down the nodes. -/
def biasRes (a : Feat F) (b : Bias F) (x : Feat F) : Feat F := addf (addf a (val_main_v90 (F := F) b)) x

/-- The first layer's aggregation is `aggregate` of its dense map. -/
theorem layer_one (x0 : Feat F) (x1 : Edges F) (x2 : Wt F) :
    val_main_v45 (F := F) x0 x1 x2 = aggregate (dense x0 x2) x1 := rfl

/-- The degree recomputed for the second layer is the first layer's. -/
theorem deg_again (x1 : Edges F) : val_main_v54 (F := F) x1 = val_main_v11 (F := F) x1 := rfl

/-- So is the inverse square root of the degree. -/
theorem dinv_again (x1 : Edges F) : val_main_v60 (F := F) x1 = val_main_v17 (F := F) x1 := by
  unfold val_main_v60 val_main_v17 val_main_v56 val_main_v13 val_main_v59 val_main_v16 val_main_v58 val_main_v15
  rw [deg_again]; rfl

/-- So are the edge weights. -/
theorem norm_again (x1 : Edges F) : val_main_v75 (F := F) x1 = val_main_v32 (F := F) x1 := by
  unfold val_main_v75 val_main_v32 val_main_v67 val_main_v24 val_main_v74 val_main_v31
  rw [dinv_again]; rfl

/-- The second layer's aggregation is `aggregate` of its dense map: its index arrays, weights and zero array are the
    first layer's stages again. -/
theorem layer_two (x0 : Feat F) (x1 : Edges F) (x2 : Wt F) (x3 : Bias F) (x4 : Wt F) :
    val_main_v88 (F := F) x0 x1 x2 x3 x4 = aggregate (val_main_v50 (F := F) x0 x1 x2 x3 x4) x1 := by
  unfold val_main_v88 aggregate val_main_v85 val_main_v82 val_main_v84 val_main_v41 val_main_v83 val_main_v40
  rw [norm_again]; rfl

/-- THE REFERENCE'S RESULT, layer by layer. -/
theorem model_eq (x0 : Feat F) (x1 : Edges F) (x2 : Wt F) (x3 : Bias F) (x4 : Wt F) (x5 : Bias F) :
    val_main_v92 (F := F) x0 x1 x2 x3 x4 x5
      = biasRes (aggregate (dense (biasRelu (aggregate (dense x0 x2) x1) x3) x4) x1) x5 x0 := by
  unfold val_main_v92 val_main_v91
  rw [layer_two]
  unfold val_main_v50 val_main_v49 val_main_v48
  rw [layer_one]
  rfl

end Cert.ReferenceIdeal.Layer

end
-- ==== Proof.HostSide.lean ====
/-
  The kernel program's host side, read back.

  Between its four kernel regions the program runs the reference's own host operations: from the edge list it builds the
  source and destination arrays (self loops appended), the degree, its inverse square root and the edge weights, once,
  before the first region; after each dense region it gathers the region's output at the sources, scales by the weights and
  scatter-adds at the destinations. Here each boundary's contents are read at the buffers the regions and the later
  stretches take:
    * an argument array is as launched wherever a region reads it (no host operation and no earlier region writes it);
    * the source, destination and weight arrays, computed before the first region, are the reference's stages of the edge
      list, and stay so up to the last stretch (no region and no later operation writes them);
    * the array a stretch hands to the next region is `Layer.aggregate` of the array the region before it left.
  The operations are the same on both sides, literal for literal, so each reading closes structurally.
-/
import proofs.«110208_j5153960755351_1_alg».proof.Proof.Gen.KernelIdeal.Frame
import proofs.«110208_j5153960755351_1_alg».proof.Proof.Layer
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo (after_of_forall_not_mem)
open Cert.ReferenceIdeal.ReadP (val_main_v3 val_main_v6 val_main_v32)
open Cert.ReferenceIdeal.Layer (aggregate)

variable {F : FTy → Type} [FloatOps F]
variable (m : (ℓ : Loc nD τ sig) → Buf (Elt F) ℓ) (ρ : Dev nD → PrngReg) (c : Dev nD)

/-- A buffer that no operation of a host stretch writes holds after the stretch what it held before. -/
macro "not_written " b:term : tactic => `(tactic| (
  refine StableHlo.after_of_forall_not_mem (b := Proc.devRef .tc $b) _ _ (List.forall_iff_forall_mem.mp ?_)
  simp only [hostOps0, hostOps0_1, hostOps0_2, hostOps1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The arguments where the regions read them -/

theorem arg0_at3 : W3 m ρ c (Proc.devRef .tc main_arg0) = m ((c : Thread nD τ).loc main_arg0) :=
  calc W3 m ρ c (Proc.devRef .tc main_arg0)
    _ = W2 m ρ c (Proc.devRef .tc main_arg0) := by not_written main_arg0
    _ = W1 m ρ c (Proc.devRef .tc main_arg0) := by not_written main_arg0
    _ = W0 m ρ c (Proc.devRef .tc main_arg0) := by not_written main_arg0
    _ = m ((c : Thread nD τ).loc main_arg0) := rfl

theorem arg2_at3 : W3 m ρ c (Proc.devRef .tc main_arg2) = m ((c : Thread nD τ).loc main_arg2) :=
  calc W3 m ρ c (Proc.devRef .tc main_arg2)
    _ = W2 m ρ c (Proc.devRef .tc main_arg2) := by not_written main_arg2
    _ = W1 m ρ c (Proc.devRef .tc main_arg2) := by not_written main_arg2
    _ = W0 m ρ c (Proc.devRef .tc main_arg2) := by not_written main_arg2
    _ = m ((c : Thread nD τ).loc main_arg2) := rfl

theorem arg3_at5 : W5 m ρ c (Proc.devRef .tc main_arg3) = m ((c : Thread nD τ).loc main_arg3) :=
  calc W5 m ρ c (Proc.devRef .tc main_arg3)
    _ = W4 m ρ c (Proc.devRef .tc main_arg3) := by not_written main_arg3
    _ = W3 m ρ c (Proc.devRef .tc main_arg3) := W4_of_ne m ρ c main_arg3 (by decide)
    _ = W2 m ρ c (Proc.devRef .tc main_arg3) := by not_written main_arg3
    _ = W1 m ρ c (Proc.devRef .tc main_arg3) := by not_written main_arg3
    _ = W0 m ρ c (Proc.devRef .tc main_arg3) := by not_written main_arg3
    _ = m ((c : Thread nD τ).loc main_arg3) := rfl

theorem arg4_at6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by not_written main_arg4
    _ = W3 m ρ c (Proc.devRef .tc main_arg4) := W4_of_ne m ρ c main_arg4 (by decide)
    _ = W2 m ρ c (Proc.devRef .tc main_arg4) := by not_written main_arg4
    _ = W1 m ρ c (Proc.devRef .tc main_arg4) := by not_written main_arg4
    _ = W0 m ρ c (Proc.devRef .tc main_arg4) := by not_written main_arg4
    _ = m ((c : Thread nD τ).loc main_arg4) := rfl

/-- Region 3 reads `main_arg5` and `main_arg0` through input windows, so its exit contents there are its entry contents;
    the run's last boundary has every argument as launched. -/
theorem arg5_at8 : W8 m ρ c (Proc.devRef .tc main_arg5) = m ((c : Thread nD τ).loc main_arg5) :=
  ((W9_arr m ρ c 1).trans (((dat3 (V8 m ρ) c).arrAt_in 1 rfl _).trans (A_eq3 (V8 m ρ) c 1))).symm.trans (W9_main_arg5 m ρ c)

theorem arg0_at8 : W8 m ρ c (Proc.devRef .tc main_arg0) = m ((c : Thread nD τ).loc main_arg0) :=
  ((W9_arr m ρ c 2).trans (((dat3 (V8 m ρ) c).arrAt_in 2 rfl _).trans (A_eq3 (V8 m ρ) c 2))).symm.trans (W9_main_arg0 m ρ c)

/-! ## The edge arrays: the reference's stages of the edge list, from the first region's entry to the last stretch -/

/-- The sources (self loops appended) before the first region. -/
theorem src_at3 : W3 m ρ c (Proc.devRef .tc main_v3) = val_main_v3 (F := F) (m ((c : Thread nD τ).loc main_arg1)) :=
  calc W3 m ρ c (Proc.devRef .tc main_v3)
    _ = W2 m ρ c (Proc.devRef .tc main_v3) := by not_written main_v3
    _ = W1 m ρ c (Proc.devRef .tc main_v3) := by not_written main_v3
    _ = val_main_v3 (F := F) (m ((c : Thread nD τ).loc main_arg1)) := by
      show StableHlo.after hostOps0 (W0 m ρ c) (Proc.devRef .tc main_v3) = _
      after_results
      rfl

/-- The destinations (self loops appended) before the first region. -/
theorem dst_at3 : W3 m ρ c (Proc.devRef .tc main_v6) = val_main_v6 (F := F) (m ((c : Thread nD τ).loc main_arg1)) :=
  calc W3 m ρ c (Proc.devRef .tc main_v6)
    _ = W2 m ρ c (Proc.devRef .tc main_v6) := by not_written main_v6
    _ = W1 m ρ c (Proc.devRef .tc main_v6) := by not_written main_v6
    _ = val_main_v6 (F := F) (m ((c : Thread nD τ).loc main_arg1)) := by
      show StableHlo.after hostOps0 (W0 m ρ c) (Proc.devRef .tc main_v6) = _
      after_results
      rfl

/-- The edge weights `dinv[src] · dinv[dst]` before the first region: the three stretches' operations, one after the
    other, are the reference's. -/
theorem norm_at3 : W3 m ρ c (Proc.devRef .tc main_v31) = val_main_v32 (F := F) (m ((c : Thread nD τ).loc main_arg1)) := by
  show StableHlo.after hostOps0_2 (StableHlo.after hostOps0_1 (StableHlo.after hostOps0 (W0 m ρ c))) (Proc.devRef .tc main_v31) = _
  after_results_simp
  rfl

/-- A buffer computed before the first region that no region and no later operation writes: the same at every later
    boundary up to the last stretch. -/
theorem src_at4 : W4 m ρ c (Proc.devRef .tc main_v3) = val_main_v3 (F := F) (m ((c : Thread nD τ).loc main_arg1)) :=
  (W4_of_ne m ρ c main_v3 (by decide)).trans (src_at3 m ρ c)
theorem dst_at4 : W4 m ρ c (Proc.devRef .tc main_v6) = val_main_v6 (F := F) (m ((c : Thread nD τ).loc main_arg1)) :=
  (W4_of_ne m ρ c main_v6 (by decide)).trans (dst_at3 m ρ c)
theorem norm_at4 : W4 m ρ c (Proc.devRef .tc main_v31) = val_main_v32 (F := F) (m ((c : Thread nD τ).loc main_arg1)) :=
  (W4_of_ne m ρ c main_v31 (by decide)).trans (norm_at3 m ρ c)

theorem src_at7 : W7 m ρ c (Proc.devRef .tc main_v3) = val_main_v3 (F := F) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by not_written main_v3
    _ = _ := src_at4 m ρ c
theorem dst_at7 : W7 m ρ c (Proc.devRef .tc main_v6) = val_main_v6 (F := F) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by not_written main_v6
    _ = _ := dst_at4 m ρ c
theorem norm_at7 : W7 m ρ c (Proc.devRef .tc main_v31) = val_main_v32 (F := F) (m ((c : Thread nD τ).loc main_arg1)) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by not_written main_v31
    _ = _ := norm_at4 m ρ c

/-! ## The two aggregations -/

set_option maxHeartbeats 1000000 in
/-- A gather-scale-scatter stretch from ANY contents `Wv` that hold the reference's source, destination and weight
    stages of the edge list `e`: the buffer it hands on is `aggregate` of the features it gathers from. (Stated over a
    variable valuation: the stretch's operations are read without looking into the contents they start from.) -/
theorem agg_one_of (Wv : Valuation τ sig (Elt F)) (e : Cert.ReferenceIdeal.Layer.Edges F)
    (h3 : Wv (Proc.devRef .tc main_v3) = val_main_v3 (F := F) e) (h6 : Wv (Proc.devRef .tc main_v6) = val_main_v6 (F := F) e)
    (h31 : Wv (Proc.devRef .tc main_v31) = val_main_v32 (F := F) e) :
    StableHlo.after hostOps1 Wv (Proc.devRef .tc main_v45) = aggregate (F := F) (Wv (Proc.devRef .tc main_v32)) e := by
  after_results_simp
  rw [h3, h6, h31]
  rfl

set_option maxHeartbeats 1000000 in
theorem agg_two_of (Wv : Valuation τ sig (Elt F)) (e : Cert.ReferenceIdeal.Layer.Edges F)
    (h3 : Wv (Proc.devRef .tc main_v3) = val_main_v3 (F := F) e) (h6 : Wv (Proc.devRef .tc main_v6) = val_main_v6 (F := F) e)
    (h31 : Wv (Proc.devRef .tc main_v31) = val_main_v32 (F := F) e) :
    StableHlo.after hostOps3 Wv (Proc.devRef .tc main_v60) = aggregate (F := F) (Wv (Proc.devRef .tc main_v47)) e := by
  after_results_simp
  rw [h3, h6, h31]
  rfl

/-- After the first dense region: what the second region is handed is `aggregate` of what the first left. -/
theorem agg_at5 : W5 m ρ c (Proc.devRef .tc main_v45)
    = aggregate (F := F) (W4 m ρ c (Proc.devRef .tc main_v32)) (m ((c : Thread nD τ).loc main_arg1)) :=
  agg_one_of (W4 m ρ c) _ (src_at4 m ρ c) (dst_at4 m ρ c) (norm_at4 m ρ c)

/-- After the second dense region: what the last region is handed is `aggregate` of what the third left. -/
theorem agg_at8 : W8 m ρ c (Proc.devRef .tc main_v60)
    = aggregate (F := F) (W7 m ρ c (Proc.devRef .tc main_v47)) (m ((c : Thread nD τ).loc main_arg1)) :=
  agg_two_of (W7 m ρ c) _ (src_at7 m ρ c) (dst_at7 m ρ c) (norm_at7 m ρ c)

end Cert.KernelIdeal.HostSide

end
-- ==== Proof.LayerAt.lean ====
/-
  The layer's dense pieces read at an index, on the extended reals.

  `dense x W` at node `P`, feature `q` is the sum over `k` of `x[P, k] · W[k, q]`; `biasRelu a b` there is
  `max (a[P, q] + b[q]) 0`; `biasRes a b x` there is `(a[P, q] + b[q]) + x[P, q]`. (The zero is kept as the word it is
  printed with: the kernel's zero is the same word.)
-/
import proofs.«110208_j5153960755351_1_alg».proof.Proof.Layer
import Idealize.ShloMosaic.Lib.ValueIdx
import Idealize.ShloMosaic.PureOps.Ideal.Laws

noncomputable section

namespace Cert.ReferenceIdeal.Layer

open Cert.ReferenceIdeal Cert.ReferenceIdeal.Gen Cert.ReferenceIdeal.ReadP Idealize.ShloMosaic Idealize.ShloMosaic.TcCoe
open Idealize.ShloMosaic.ValueIdx

/-- A node's row of `x · W`: the sum over the 64 input features. -/
theorem dense_apply (x : Feat Ideal) (W : Wt Ideal) (P : Fin 100000) (q : Fin 64) :
    dense x W (ix2 P q) = ∑ k : Fin 64, x (ix2 P k) * W (ix2 k q) := by
  unfold dense
  rw [val_main_v7_apply]
  refine Finset.sum_congr rfl fun k _ => ?_
  have el : lidx_main_v7 (ix2 P q) k = ix2 P k := funext fun a => match a with | ⟨0, _⟩ => rfl | ⟨1, _⟩ => rfl
  have er : ridx_main_v7 (ix2 P q) k = ix2 k q := funext fun a => match a with | ⟨0, _⟩ => rfl | ⟨1, _⟩ => rfl
  rw [el, er]

/-- The bias row broadcast down the nodes, read at a node. -/
theorem bias_row1 (b : Bias Ideal) (P : Fin 100000) (q : Fin 64) : val_main_v47 (F := Ideal) b (ix2 P q) = b (ix1 q) := by
  rw [val_main_v47_apply, val_main_v46_apply]
  exact congrArg b (funext fun a => match a with | ⟨0, _⟩ => rfl)

theorem bias_row2 (b : Bias Ideal) (P : Fin 100000) (q : Fin 64) : val_main_v90 (F := Ideal) b (ix2 P q) = b (ix1 q) := by
  rw [val_main_v90_apply, val_main_v89_apply]
  exact congrArg b (funext fun a => match a with | ⟨0, _⟩ => rfl)

/-- The zero array the maximum is taken against, read at a node. -/
theorem zero_at (i : S100000x64.Idx) : val_main_call1_v0 (F := Ideal) i = Ideal.ofBits .f32 0x00000000#32 := by
  rw [val_main_call1_v0_apply]; rfl

theorem biasRelu_apply (a : Feat Ideal) (b : Bias Ideal) (P : Fin 100000) (q : Fin 64) :
    biasRelu a b (ix2 P q) = max (a (ix2 P q) + b (ix1 q)) (Ideal.ofBits .f32 0x00000000#32) := by
  unfold biasRelu
  rw [maximumf_apply, addf_apply, bias_row1, zero_at]

theorem biasRes_apply (a : Feat Ideal) (b : Bias Ideal) (x : Feat Ideal) (P : Fin 100000) (q : Fin 64) :
    biasRes a b x (ix2 P q) = (a (ix2 P q) + b (ix1 q)) + x (ix2 P q) := by
  unfold biasRes
  rw [addf_apply, addf_apply, bias_row2]

end Cert.ReferenceIdeal.Layer

end
-- ==== Proof.Dense.lean ====
/-
  The two dense regions as whole-array maps.

  A dense region runs over 20 grid points; point `t` is handed rows `5000·t … 5000·t + 4999` of its input (all 64
  features) and the whole 64 × 64 weight matrix, multiplies them on the matrix unit into a zero accumulator, and writes
  the product back as the same rows of its output. On the extended reals entry `(p, q)` of a point's product is the sum
  over `k` of `block[p, k] · W[k, q]`, so what point `t` writes back is rows `5000·t …` of the one array `dense x W`
  (`x · W` row by row: a row of the product reads only that row of `x`, so cutting the rows into blocks changes no
  sum). The blocks cover every row, so the region's output array ends at `dense x W`, whatever contents `V` the region
  is entered from (`x`, `W` being `V` at the region's two input arrays).
-/
import proofs.«110208_j5153960755351_1_alg».proof.Proof.Gen.KernelIdeal.Frame
import proofs.«110208_j5153960755351_1_alg».proof.Proof.LayerAt
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Cert.ReferenceIdeal.Layer (Feat Wt dense dense_apply)

/-! ## The matrix unit's product at an entry -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times the 64 × 64 weights into a zero accumulator: entry `(p, q)` is the sum over `k` of
    `block[p, k] · W[k, q]`. -/
theorem block_product (x0 : FVec Ideal S5000x64 .f32) (x1 : FVec Ideal S64x64 .f32) (p : Fin 5000) (q : Fin 64) :
    matmul (F := Ideal) dot_S5000x64_S64x64_S5000x64_1_0_0_1_n_n none x0 x1 (constant (F := Ideal) S5000x64 .f32 0x00000000#32) (ix2 p q)
      = ∑ k : Fin 64, x0 (ix2 p k) * x1 (ix2 k q) := by
  show FloatOps.matmul dot_S5000x64_S64x64_S5000x64_1_0_0_1_n_n none x0 x1 (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The first dense region's body at an entry. -/
theorem product_at0 (x0 : Vec Ideal S5000x64 .f32) (x1 : Vec Ideal S64x64 .f32) (p : Fin 5000) (q : Fin 64) :
    k0_pay1 x0 x1 (ix2 p q) = ∑ k : Fin 64, x0 (ix2 p k) * x1 (ix2 k q) :=
  block_product x0 x1 p q

/-- The second dense region's body at an entry (its block passes through a reshape to its own shape first). -/
theorem product_at2 (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  show matmul (F := Ideal) dot_S5000x64_S64x64_S5000x64_1_0_0_1_n_n none (shapeCast S5000x64 x0 shapeCasts_S5000x64_S5000x64) x1 (constant (F := Ideal) S5000x64 .f32 0x00000000#32) (ix2 p q) = _
  rw [shapeCast_self]
  exact block_product x0 x1 p q

theorem origin2 : (![0, 0] : Fin 2 → Nat) = fun _ => 0 := funext fun a => by fin_cases a <;> rfl

variable (V : (c : Dev nD) → (b : Ref sig .tc) → Buf (Elt Ideal) ((c : Thread nD τ).loc b))

/-! ## Region 0 -/

/-- The region's two input arrays as it finds them, at their literal types. -/
abbrev feats0 (c : Dev nD) : Feat Ideal := V c main_arg0
abbrev weights0 (c : Dev nD) : Wt Ideal := V c main_arg2

/-- The region's index maps over its 20 points: the feature block and the output block of point `t` are block row `t`,
    the weights' block is always the whole matrix. -/
theorem points0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK: rows `5000·t …` of `dense` of the region's two input arrays as it finds them. -/
theorem flushed0 (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  obtain ⟨e0, e1, e2, e3, e4, e5⟩ := points0 t
  have ht : t.val < 20 := t.isLt
  funext j
  have hj0 : (j 0).val < 5000 := (j 0).isLt
  have hj1 : (j 1).val < 64 := (j 1).isLt
  have hj : j = ix2 (⟨(j 0).val, hj0⟩ : Fin 5000) (⟨(j 1).val, hj1⟩ : Fin 64) :=
    funext fun a => match a with | ⟨0, _⟩ => rfl | ⟨1, _⟩ => rfl
  have hrow : t.val * 5000 + (j 0).val < 100000 := by omega
  have hemb : ((cfg0.win 2).blk t).view.emb j = ix2 (⟨t.val * 5000 + (j 0).val, hrow⟩ : Fin 100000) (⟨(j 1).val, hj1⟩ : Fin 64) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 64 + 1 * (j 1).val = (j 1).val; omega)
  show k0_pay1 (iblk0 V c 0 t) (iblk0 V c 1 t) j = dense (V c main_arg0) (V c main_arg2) (((cfg0.win 2).blk t).view.emb j)
  refine ((congrArg (k0_pay1 (iblk0 V c 0 t) (iblk0 V c 1 t)) hj).trans ?_).trans
    ((congrArg (dense (V c main_arg0) (V c main_arg2)) hemb).trans (dense_apply _ _ _ _)).symm
  refine (product_at0 (iblk0 V c 0 t) (iblk0 V c 1 t) _ _).trans (Finset.sum_congr rfl fun k _ => ?_)
  have h0 : ((cfg0.win 0).blk t).view.emb (ix2 (⟨(j 0).val, hj0⟩ : Fin 5000) k) = ix2 (⟨t.val * 5000 + (j 0).val, hrow⟩ : Fin 100000) k :=
    funext fun a => Fin.ext (by
      match a with
      | ⟨0, _⟩ => show win0_0.index t (0 : Fin 2) * 5000 + 1 * (j 0).val = t.val * 5000 + (j 0).val; omega
      | ⟨1, _⟩ => show win0_0.index t (1 : Fin 2) * 64 + 1 * k.val = k.val; omega)
  have h1 : ((cfg0.win 1).blk t).view.emb (ix2 k (⟨(j 1).val, hj1⟩ : Fin 64)) = ix2 k (⟨(j 1).val, hj1⟩ : Fin 64) :=
    funext fun a => Fin.ext (by
      match a with
      | ⟨0, _⟩ => show win0_1.index t (0 : Fin 2) * 64 + 1 * k.val = k.val; omega
      | ⟨1, _⟩ => show win0_1.index t (1 : Fin 2) * 64 + 1 * (j 1).val = (j 1).val; omega)
  show feats0 V c (((cfg0.win 0).blk t).view.emb (ix2 (⟨(j 0).val, hj0⟩ : Fin 5000) k))
      * weights0 V c (((cfg0.win 1).blk t).view.emb (ix2 k (⟨(j 1).val, hj1⟩ : Fin 64)))
    = feats0 V c (ix2 (⟨t.val * 5000 + (j 0).val, hrow⟩ : Fin 100000) k) * weights0 V c (ix2 k (⟨(j 1).val, hj1⟩ : Fin 64))
  rw [h0, h1]

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row is in the block of point `row / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 5000 < 20 := by omega
  obtain ⟨-, -, -, -, e4, e5⟩ := points0 ⟨(i 0).val / 5000, hq⟩
  have e4' : win0_2.index ⟨(i 0).val / 5000, hq⟩ (0 : Fin 2) = (i 0).val / 5000 := e4
  refine ⟨⟨(i 0).val / 5000, hq⟩, flush0_2 _, ?_⟩
  rw [mem_blk0]
  intro a
  match a with
  | ⟨0, _⟩ => show win0_2.index ⟨(i 0).val / 5000, hq⟩ (0 : Fin 2) * 5000 ≤ (i 0).val ∧ (i 0).val < win0_2.index ⟨(i 0).val / 5000, hq⟩ (0 : Fin 2) * 5000 + 5000; omega
  | ⟨1, _⟩ => show win0_2.index ⟨(i 0).val / 5000, hq⟩ (1 : Fin 2) * 64 ≤ (i 1).val ∧ (i 1).val < win0_2.index ⟨(i 0).val / 5000, hq⟩ (1 : Fin 2) * 64 + 64; omega

/-- THE REGION'S OUTPUT ARRAY after its run: `dense` of its two input arrays as it finds them. -/
theorem final0 (c : Dev nD) : (dat0 V c).arrAt 2 cfg0.N = dense (V c main_arg0) (V c main_arg2) :=
  (dat0 V c).arrAt_eq_of_cover 2 (dense (V c main_arg0) (V c main_arg2)) (fun t _ => flushed0 V c t) (cover0)

/-! ## Region 2 -/

/-- The region's two input arrays as it finds them, at their literal types. -/
abbrev feats2 (c : Dev nD) : Feat Ideal := V c main_v46
abbrev weights2 (c : Dev nD) : Wt Ideal := V c main_arg4

/-- The region's index maps over its 20 points: the feature block and the output block of point `t` are block row `t`,
    the weights' block is always the whole matrix. -/
theorem points2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK: rows `5000·t …` of `dense` of the region's two input arrays as it finds them. -/
theorem flushed2 (c : Dev nD) (t : Fin cfg2.N) :
    (dat2 V c).flushed 2 t = ((cfg2.win 2).blk t).view.read (Elt Ideal) (dense (V c main_v46) (V c main_arg4)) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S64x64) origin2]
  obtain ⟨e0, e1, e2, e3, e4, e5⟩ := points2 t
  have ht : t.val < 20 := t.isLt
  funext j
  have hj0 : (j 0).val < 5000 := (j 0).isLt
  have hj1 : (j 1).val < 64 := (j 1).isLt
  have hj : j = ix2 (⟨(j 0).val, hj0⟩ : Fin 5000) (⟨(j 1).val, hj1⟩ : Fin 64) :=
    funext fun a => match a with | ⟨0, _⟩ => rfl | ⟨1, _⟩ => rfl
  have hrow : t.val * 5000 + (j 0).val < 100000 := by omega
  have hemb : ((cfg2.win 2).blk t).view.emb j = ix2 (⟨t.val * 5000 + (j 0).val, hrow⟩ : Fin 100000) (⟨(j 1).val, hj1⟩ : Fin 64) :=
    funext fun a => Fin.ext (by
      match a with
      | ⟨0, _⟩ => show win2_2.index t (0 : Fin 2) * 5000 + 1 * (j 0).val = t.val * 5000 + (j 0).val; omega
      | ⟨1, _⟩ => show win2_2.index t (1 : Fin 2) * 64 + 1 * (j 1).val = (j 1).val; omega)
  show k2_pay1 (iblk2 V c 0 t) (iblk2 V c 1 t) j = dense (V c main_v46) (V c main_arg4) (((cfg2.win 2).blk t).view.emb j)
  refine ((congrArg (k2_pay1 (iblk2 V c 0 t) (iblk2 V c 1 t)) hj).trans ?_).trans
    ((congrArg (dense (V c main_v46) (V c main_arg4)) hemb).trans (dense_apply _ _ _ _)).symm
  refine (product_at2 (iblk2 V c 0 t) (iblk2 V c 1 t) _ _).trans (Finset.sum_congr rfl fun k _ => ?_)
  have h0 : ((cfg2.win 0).blk t).view.emb (ix2 (⟨(j 0).val, hj0⟩ : Fin 5000) k) = ix2 (⟨t.val * 5000 + (j 0).val, hrow⟩ : Fin 100000) k :=
    funext fun a => Fin.ext (by
      match a with
      | ⟨0, _⟩ => show win2_0.index t (0 : Fin 2) * 5000 + 1 * (j 0).val = t.val * 5000 + (j 0).val; omega
      | ⟨1, _⟩ => show win2_0.index t (1 : Fin 2) * 64 + 1 * k.val = k.val; omega)
  have h1 : ((cfg2.win 1).blk t).view.emb (ix2 k (⟨(j 1).val, hj1⟩ : Fin 64)) = ix2 k (⟨(j 1).val, hj1⟩ : Fin 64) :=
    funext fun a => Fin.ext (by
      match a with
      | ⟨0, _⟩ => show win2_1.index t (0 : Fin 2) * 64 + 1 * k.val = k.val; omega
      | ⟨1, _⟩ => show win2_1.index t (1 : Fin 2) * 64 + 1 * (j 1).val = (j 1).val; omega)
  show feats2 V c (((cfg2.win 0).blk t).view.emb (ix2 (⟨(j 0).val, hj0⟩ : Fin 5000) k))
      * weights2 V c (((cfg2.win 1).blk t).view.emb (ix2 k (⟨(j 1).val, hj1⟩ : Fin 64)))
    = feats2 V c (ix2 (⟨t.val * 5000 + (j 0).val, hrow⟩ : Fin 100000) k) * weights2 V c (ix2 k (⟨(j 1).val, hj1⟩ : Fin 64))
  rw [h0, h1]

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- Every row is in the block of point `row / 5000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hq : (i 0).val / 5000 < 20 := by omega
  obtain ⟨-, -, -, -, e4, e5⟩ := points2 ⟨(i 0).val / 5000, hq⟩
  have e4' : win2_2.index ⟨(i 0).val / 5000, hq⟩ (0 : Fin 2) = (i 0).val / 5000 := e4
  refine ⟨⟨(i 0).val / 5000, hq⟩, flush2_2 _, ?_⟩
  rw [mem_blk2]
  intro a
  match a with
  | ⟨0, _⟩ => show win2_2.index ⟨(i 0).val / 5000, hq⟩ (0 : Fin 2) * 5000 ≤ (i 0).val ∧ (i 0).val < win2_2.index ⟨(i 0).val / 5000, hq⟩ (0 : Fin 2) * 5000 + 5000; omega
  | ⟨1, _⟩ => show win2_2.index ⟨(i 0).val / 5000, hq⟩ (1 : Fin 2) * 64 ≤ (i 1).val ∧ (i 1).val < win2_2.index ⟨(i 0).val / 5000, hq⟩ (1 : Fin 2) * 64 + 64; omega

/-- THE REGION'S OUTPUT ARRAY after its run: `dense` of its two input arrays as it finds them. -/
theorem final2 (c : Dev nD) : (dat2 V c).arrAt 2 cfg2.N = dense (V c main_v46) (V c main_arg4) :=
  (dat2 V c).arrAt_eq_of_cover 2 (dense (V c main_v46) (V c main_arg4)) (fun t _ => flushed2 V c t) (cover2)

end Cert.KernelIdeal.Dense

end
-- ==== Proof.Epilogue.lean ====
/-
  The two epilogue regions as whole-array maps.

  Both run over 20 grid points; point `t` is handed rows `5000·t … 5000·t + 4999` of the aggregated features (and, in the
  last region, of the residual input) and the whole 64-entry bias row. The body adds the bias row to every row of the
  block — the row reshaped to 1 × 64 and broadcast down the 5000 rows — and then takes the maximum with zero (region 1) or
  adds the residual block (region 3), entry by entry. So what point `t` writes back is rows `5000·t …` of ONE array,
  `biasRelu a b` resp. `biasRes a b x` of the region's input arrays, and the blocks cover every row.
-/
import proofs.«110208_j5153960755351_1_alg».proof.Proof.Gen.KernelIdeal.Frame
import proofs.«110208_j5153960755351_1_alg».proof.Proof.LayerAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.ValueIdx
open Cert.ReferenceIdeal.Layer (Feat Bias biasRelu biasRelu_apply biasRes biasRes_apply)

/-! ## The bodies at an entry -/

/-- The bias row reshaped to 1 × 64 and broadcast down a block's 5000 rows reads, at `(p, q)`, the row's entry `q`. -/
theorem bias_rows (x1 : Vec Ideal S64 .f32) (p : Fin 5000) (q : Fin 64) :
    broadcastTo S5000x64 (shapeCast S1x64 x1 shapeCasts_S64_S1x64) broadcasts_S1x64_S5000x64 (ix2 p q) = x1 (ix1 q) := by
  rw [broadcastTo_1b_ab_apply, shapeCast_a_1a_apply]

/-- Region 1's body: `max (block[p, q] + bias[q]) 0`. -/
theorem bias_relu_at (x0 : Vec Ideal S5000x64 .f32) (x1 : Vec Ideal S64 .f32) (p : Fin 5000) (q : Fin 64) :
    k1_pay1 x0 x1 (ix2 p q) = max (x0 (ix2 p q) + x1 (ix1 q)) (Ideal.ofBits .f32 0x00000000#32) := by
  unfold k1_pay1
  show max (shapeCast S5000x64 x0 shapeCasts_S5000x64_S5000x64 (ix2 p q)
      + broadcastTo S5000x64 (shapeCast S1x64 x1 shapeCasts_S64_S1x64) broadcasts_S1x64_S5000x64 (ix2 p q)) (Ideal.ofBits .f32 0x00000000#32) = _
  rw [shapeCast_self, bias_rows]

/-- Region 3's body: `(block[p, q] + bias[q]) + residual[p, q]`. -/
theorem bias_res_at (x0 : Vec Ideal S5000x64 .f32) (x1 : Vec Ideal S64 .f32) (x2 : Vec Ideal S5000x64 .f32) (p : Fin 5000) (q : Fin 64) :
    k3_pay1 x0 x1 x2 (ix2 p q) = (x0 (ix2 p q) + x1 (ix1 q)) + x2 (ix2 p q) := by
  unfold k3_pay1
  show (shapeCast S5000x64 x0 shapeCasts_S5000x64_S5000x64 (ix2 p q)
      + broadcastTo S5000x64 (shapeCast S1x64 x1 shapeCasts_S64_S1x64) broadcasts_S1x64_S5000x64 (ix2 p q)) + x2 (ix2 p q) = _
  rw [shapeCast_self, bias_rows]

theorem origin2 : (![0, 0] : Fin 2 → Nat) = fun _ => 0 := funext fun a => by fin_cases a <;> rfl
theorem origin1 : (![0] : Fin 1 → Nat) = fun _ => 0 := funext fun a => by fin_cases a <;> rfl

variable (V : (c : Dev nD) → (b : Ref sig .tc) → Buf (Elt Ideal) ((c : Thread nD τ).loc b))

/-! ## Region 1: bias and relu -/

/-- The region's two input arrays as it finds them, at their literal types. -/
abbrev agg1 (c : Dev nD) : Feat Ideal := V c main_v45
abbrev bias1 (c : Dev nD) : Bias Ideal := V c main_arg3

/-- The region's index maps over its 20 points: feature block and output block of point `t` are block row `t`, the
    bias row's block is always the whole row. -/
theorem points1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- WHAT POINT `t` WRITES BACK: rows `5000·t …` of `biasRelu` of the region's input arrays as it finds them. -/
theorem flushed1 (c : Dev nD) (t : Fin cfg1.N) :
    (dat1 V c).flushed 2 t = ((cfg1.win 2).blk t).view.read (Elt Ideal) (biasRelu (V c main_v45) (V c main_arg3)) := by
  show (cfg1.win 2).cut (grid1.coords t) ((dat1 V c).after 2 t) = _
  rw [after1_2]
  unfold out1_2
  rw [View.canon_unit_zero origin2]
  simp only [View.ld_unit_zero (S := S5000x64) origin2, View.ld_unit_zero (S := S64) origin1]
  obtain ⟨e0, e1, e2, e3, e4⟩ := points1 t
  have ht : t.val < 20 := t.isLt
  funext j
  have hj0 : (j 0).val < 5000 := (j 0).isLt
  have hj1 : (j 1).val < 64 := (j 1).isLt
  have hj : j = ix2 (⟨(j 0).val, hj0⟩ : Fin 5000) (⟨(j 1).val, hj1⟩ : Fin 64) :=
    funext fun a => match a with | ⟨0, _⟩ => rfl | ⟨1, _⟩ => rfl
  have hrow : t.val * 5000 + (j 0).val < 100000 := by omega
  have hemb : ((cfg1.win 2).blk t).view.emb j = ix2 (⟨t.val * 5000 + (j 0).val, hrow⟩ : Fin 100000) (⟨(j 1).val, hj1⟩ : Fin 64) :=
    funext fun a => Fin.ext (by
      match a with
      | ⟨0, _⟩ => show win1_2.index t (0 : Fin 2) * 5000 + 1 * (j 0).val = t.val * 5000 + (j 0).val; omega
      | ⟨1, _⟩ => show win1_2.index t (1 : Fin 2) * 64 + 1 * (j 1).val = (j 1).val; omega)
  have h0 : ((cfg1.win 0).blk t).view.emb (ix2 (⟨(j 0).val, hj0⟩ : Fin 5000) (⟨(j 1).val, hj1⟩ : Fin 64))
      = ix2 (⟨t.val * 5000 + (j 0).val, hrow⟩ : Fin 100000) (⟨(j 1).val, hj1⟩ : Fin 64) :=
    funext fun a => Fin.ext (by
      match a with
      | ⟨0, _⟩ => show win1_0.index t (0 : Fin 2) * 5000 + 1 * (j 0).val = t.val * 5000 + (j 0).val; omega
      | ⟨1, _⟩ => show win1_0.index t (1 : Fin 2) * 64 + 1 * (j 1).val = (j 1).val; omega)
  have h1 : ((cfg1.win 1).blk t).view.emb (ix1 (⟨(j 1).val, hj1⟩ : Fin 64)) = ix1 (⟨(j 1).val, hj1⟩ : Fin 64) :=
    funext fun a => Fin.ext (by
      match a with
      | ⟨0, _⟩ => show win1_1.index t (0 : Fin 1) * 64 + 1 * (j 1).val = (j 1).val; omega)
  show k1_pay1 (iblk1 V c 0 t) (iblk1 V c 1 t) j = biasRelu (V c main_v45) (V c main_arg3) (((cfg1.win 2).blk t).view.emb j)
  refine ((congrArg (k1_pay1 (iblk1 V c 0 t) (iblk1 V c 1 t)) hj).trans ((bias_relu_at _ _ _ _).trans ?_)).trans
    ((congrArg (biasRelu (V c main_v45) (V c main_arg3)) hemb).trans (biasRelu_apply _ _ _ _)).symm
  show max (agg1 V c (((cfg1.win 0).blk t).view.emb (ix2 (⟨(j 0).val, hj0⟩ : Fin 5000) (⟨(j 1).val, hj1⟩ : Fin 64)))
      + bias1 V c (((cfg1.win 1).blk t).view.emb (ix1 (⟨(j 1).val, hj1⟩ : Fin 64)))) (Ideal.ofBits .f32 0x00000000#32)
    = max (agg1 V c (ix2 (⟨t.val * 5000 + (j 0).val, hrow⟩ : Fin 100000) (⟨(j 1).val, hj1⟩ : Fin 64)) + bias1 V c (ix1 (⟨(j 1).val, hj1⟩ : Fin 64))) (Ideal.ofBits .f32 0x00000000#32)
  rw [h0, h1]

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- Every row is in the block of point `row / 5000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hq : (i 0).val / 5000 < 20 := by omega
  obtain ⟨-, -, -, e3, e4⟩ := points1 ⟨(i 0).val / 5000, hq⟩
  have e3' : win1_2.index ⟨(i 0).val / 5000, hq⟩ (0 : Fin 2) = (i 0).val / 5000 := e3
  refine ⟨⟨(i 0).val / 5000, hq⟩, flush1_2 _, ?_⟩
  rw [mem_blk1]
  intro a
  match a with
  | ⟨0, _⟩ => show win1_2.index ⟨(i 0).val / 5000, hq⟩ (0 : Fin 2) * 5000 ≤ (i 0).val ∧ (i 0).val < win1_2.index ⟨(i 0).val / 5000, hq⟩ (0 : Fin 2) * 5000 + 5000; omega
  | ⟨1, _⟩ => show win1_2.index ⟨(i 0).val / 5000, hq⟩ (1 : Fin 2) * 64 ≤ (i 1).val ∧ (i 1).val < win1_2.index ⟨(i 0).val / 5000, hq⟩ (1 : Fin 2) * 64 + 64; omega

/-- THE REGION'S OUTPUT ARRAY after its run: `biasRelu` of its two input arrays as it finds them. -/
theorem final1 (c : Dev nD) : (dat1 V c).arrAt 2 cfg1.N = biasRelu (V c main_v45) (V c main_arg3) :=
  (dat1 V c).arrAt_eq_of_cover 2 (biasRelu (V c main_v45) (V c main_arg3)) (fun t _ => flushed1 V c t) (cover1)

/-! ## Region 3: bias and residual -/

/-- The region's three input arrays as it finds them, at their literal types. -/
abbrev agg3 (c : Dev nD) : Feat Ideal := V c main_v60
abbrev bias3 (c : Dev nD) : Bias Ideal := V c main_arg5
abbrev res3 (c : Dev nD) : Feat Ideal := V c main_arg0

/-- The region's index maps over its 20 points: the aggregated block, the residual block and the output block of point
    `t` are block row `t`, the bias row's block is always the whole row. -/
theorem points3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK: rows `5000·t …` of `biasRes` of the region's input arrays as it finds them. -/
theorem flushed3 (c : Dev nD) (t : Fin cfg3.N) :
    (dat3 V c).flushed 3 t = ((cfg3.win 3).blk t).view.read (Elt Ideal) (biasRes (V c main_v60) (V c main_arg5) (V c main_arg0)) := by
  show (cfg3.win 3).cut (grid3.coords t) ((dat3 V c).after 3 t) = _
  rw [after3_3]
  unfold out3_3
  rw [View.canon_unit_zero origin2]
  simp only [View.ld_unit_zero (S := S5000x64) origin2, View.ld_unit_zero (S := S64) origin1]
  obtain ⟨e0, e1, e2, e3, e4, e5, e6⟩ := points3 t
  have ht : t.val < 20 := t.isLt
  funext j
  have hj0 : (j 0).val < 5000 := (j 0).isLt
  have hj1 : (j 1).val < 64 := (j 1).isLt
  have hj : j = ix2 (⟨(j 0).val, hj0⟩ : Fin 5000) (⟨(j 1).val, hj1⟩ : Fin 64) :=
    funext fun a => match a with | ⟨0, _⟩ => rfl | ⟨1, _⟩ => rfl
  have hrow : t.val * 5000 + (j 0).val < 100000 := by omega
  have hemb : ((cfg3.win 3).blk t).view.emb j = ix2 (⟨t.val * 5000 + (j 0).val, hrow⟩ : Fin 100000) (⟨(j 1).val, hj1⟩ : Fin 64) :=
    funext fun a => Fin.ext (by
      match a with
      | ⟨0, _⟩ => show win3_3.index t (0 : Fin 2) * 5000 + 1 * (j 0).val = t.val * 5000 + (j 0).val; omega
      | ⟨1, _⟩ => show win3_3.index t (1 : Fin 2) * 64 + 1 * (j 1).val = (j 1).val; omega)
  have h0 : ((cfg3.win 0).blk t).view.emb (ix2 (⟨(j 0).val, hj0⟩ : Fin 5000) (⟨(j 1).val, hj1⟩ : Fin 64))
      = ix2 (⟨t.val * 5000 + (j 0).val, hrow⟩ : Fin 100000) (⟨(j 1).val, hj1⟩ : Fin 64) :=
    funext fun a => Fin.ext (by
      match a with
      | ⟨0, _⟩ => show win3_0.index t (0 : Fin 2) * 5000 + 1 * (j 0).val = t.val * 5000 + (j 0).val; omega
      | ⟨1, _⟩ => show win3_0.index t (1 : Fin 2) * 64 + 1 * (j 1).val = (j 1).val; omega)
  have h1 : ((cfg3.win 1).blk t).view.emb (ix1 (⟨(j 1).val, hj1⟩ : Fin 64)) = ix1 (⟨(j 1).val, hj1⟩ : Fin 64) :=
    funext fun a => Fin.ext (by
      match a with
      | ⟨0, _⟩ => show win3_1.index t (0 : Fin 1) * 64 + 1 * (j 1).val = (j 1).val; omega)
  have h2 : ((cfg3.win 2).blk t).view.emb (ix2 (⟨(j 0).val, hj0⟩ : Fin 5000) (⟨(j 1).val, hj1⟩ : Fin 64))
      = ix2 (⟨t.val * 5000 + (j 0).val, hrow⟩ : Fin 100000) (⟨(j 1).val, hj1⟩ : Fin 64) :=
    funext fun a => Fin.ext (by
      match a with
      | ⟨0, _⟩ => show win3_2.index t (0 : Fin 2) * 5000 + 1 * (j 0).val = t.val * 5000 + (j 0).val; omega
      | ⟨1, _⟩ => show win3_2.index t (1 : Fin 2) * 64 + 1 * (j 1).val = (j 1).val; omega)
  show k3_pay1 (iblk3 V c 0 t) (iblk3 V c 1 t) (iblk3 V c 2 t) j
      = biasRes (V c main_v60) (V c main_arg5) (V c main_arg0) (((cfg3.win 3).blk t).view.emb j)
  refine ((congrArg (k3_pay1 (iblk3 V c 0 t) (iblk3 V c 1 t) (iblk3 V c 2 t)) hj).trans ((bias_res_at _ _ _ _ _).trans ?_)).trans
    ((congrArg (biasRes (V c main_v60) (V c main_arg5) (V c main_arg0)) hemb).trans (biasRes_apply _ _ _ _ _)).symm
  show (agg3 V c (((cfg3.win 0).blk t).view.emb (ix2 (⟨(j 0).val, hj0⟩ : Fin 5000) (⟨(j 1).val, hj1⟩ : Fin 64)))
      + bias3 V c (((cfg3.win 1).blk t).view.emb (ix1 (⟨(j 1).val, hj1⟩ : Fin 64))))
      + res3 V c (((cfg3.win 2).blk t).view.emb (ix2 (⟨(j 0).val, hj0⟩ : Fin 5000) (⟨(j 1).val, hj1⟩ : Fin 64)))
    = (agg3 V c (ix2 (⟨t.val * 5000 + (j 0).val, hrow⟩ : Fin 100000) (⟨(j 1).val, hj1⟩ : Fin 64)) + bias3 V c (ix1 (⟨(j 1).val, hj1⟩ : Fin 64)))
      + res3 V c (ix2 (⟨t.val * 5000 + (j 0).val, hrow⟩ : Fin 100000) (⟨(j 1).val, hj1⟩ : Fin 64))
  rw [h0, h1, h2]

/-- An index of the output array is in point `t`'s block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v61).slice (win3_3.rect t)).set ↔ _
  rw [View.set_slice_whole, Rect.mem_set_unit]
  exact Iff.rfl

/-- Every row is in the block of point `row / 5000`. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hq : (i 0).val / 5000 < 20 := by omega
  obtain ⟨-, -, -, -, -, e5, e6⟩ := points3 ⟨(i 0).val / 5000, hq⟩
  have e5' : win3_3.index ⟨(i 0).val / 5000, hq⟩ (0 : Fin 2) = (i 0).val / 5000 := e5
  refine ⟨⟨(i 0).val / 5000, hq⟩, flush3_3 _, ?_⟩
  rw [mem_blk3]
  intro a
  match a with
  | ⟨0, _⟩ => show win3_3.index ⟨(i 0).val / 5000, hq⟩ (0 : Fin 2) * 5000 ≤ (i 0).val ∧ (i 0).val < win3_3.index ⟨(i 0).val / 5000, hq⟩ (0 : Fin 2) * 5000 + 5000; omega
  | ⟨1, _⟩ => show win3_3.index ⟨(i 0).val / 5000, hq⟩ (1 : Fin 2) * 64 ≤ (i 1).val ∧ (i 1).val < win3_3.index ⟨(i 0).val / 5000, hq⟩ (1 : Fin 2) * 64 + 64; omega

/-- THE REGION'S OUTPUT ARRAY after its run: `biasRes` of its three input arrays as it finds them. -/
theorem final3 (c : Dev nD) : (dat3 V c).arrAt 3 cfg3.N = biasRes (V c main_v60) (V c main_arg5) (V c main_arg0) :=
  (dat3 V c).arrAt_eq_of_cover 3 (biasRes (V c main_v60) (V c main_arg5) (V c main_arg0)) (fun t _ => flushed3 V c t) (cover3)

end Cert.KernelIdeal.Epilogue

end
-- ==== Proof.KernelValue.lean ====
/-
  The kernel program's result, as one function of its six arguments.

  Boundary by boundary through @main, on every core: the first dense region leaves `dense x W₁` (its inputs are the
  arguments as launched); the host stretch after it hands the second region `aggregate (dense x W₁) e`; the second region
  leaves `biasRelu` of that and `b₁`; the third `dense` of that and `W₂`; the last stretch hands on its `aggregate`; the
  last region leaves `biasRes` of that, `b₂` and `x` in the result array. Each region's output is read by its whole-array
  map at the contents it is entered from, each stretch by the reading of the host side; the run itself is the launch over
  the same segments with the result buffer in its post.
-/
import proofs.«110208_j5153960755351_1_alg».proof.Proof.ValueRun
import proofs.«110208_j5153960755351_1_alg».proof.Proof.HostSide
import proofs.«110208_j5153960755351_1_alg».proof.Proof.Dense
import proofs.«110208_j5153960755351_1_alg».proof.Proof.Epilogue

set_option maxRecDepth 16384

noncomputable section

namespace Cert.KernelIdeal.Result

open Cert.KernelIdeal Cert.KernelIdeal.Gen Idealize.ShloMosaic Idealize.ShloMosaic.TcCoe Idealize.SL.Sem
open Cert.KernelIdeal.HostSide
open Cert.ReferenceIdeal.Layer (Feat Edges Wt Bias aggregate dense biasRelu biasRes)

/-- Two graph-convolution layers with a relu between and a residual at the end. -/
def twoLayers (x : Feat Ideal) (e : Edges Ideal) (W₁ : Wt Ideal) (b₁ : Bias Ideal) (W₂ : Wt Ideal) (b₂ : Bias Ideal) : Feat Ideal :=
  biasRes (aggregate (dense (biasRelu (aggregate (dense x W₁) e) b₁) W₂) e) b₂ x

variable (m : (ℓ : Loc nD τ sig) → Buf (Elt Ideal) ℓ) (ρ : Dev nD → PrngReg) (c : Dev nD)

/-- After the first dense region. -/
theorem out_dense1 : W4 m ρ c (Proc.devRef .tc main_v32)
    = dense (m ((c : Thread nD τ).loc main_arg0)) (m ((c : Thread nD τ).loc main_arg2)) :=
  (W4_arr m ρ c 2).trans ((Dense.final0 (V3 m ρ) c).trans (congrArg₂ dense (arg0_at3 m ρ c) (arg2_at3 m ρ c)))

/-- What the second region is handed. -/
theorem in_relu : W5 m ρ c (Proc.devRef .tc main_v45)
    = aggregate (dense (m ((c : Thread nD τ).loc main_arg0)) (m ((c : Thread nD τ).loc main_arg2))) (m ((c : Thread nD τ).loc main_arg1)) :=
  (agg_at5 m ρ c).trans (congrArg (fun h => aggregate h (m ((c : Thread nD τ).loc main_arg1))) (out_dense1 m ρ c))

/-- After the bias-and-relu region. -/
theorem out_relu : W6 m ρ c (Proc.devRef .tc main_v46)
    = biasRelu (aggregate (dense (m ((c : Thread nD τ).loc main_arg0)) (m ((c : Thread nD τ).loc main_arg2))) (m ((c : Thread nD τ).loc main_arg1)))
        (m ((c : Thread nD τ).loc main_arg3)) :=
  (W6_arr m ρ c 2).trans ((Epilogue.final1 (V5 m ρ) c).trans (congrArg₂ biasRelu (in_relu m ρ c) (arg3_at5 m ρ c)))

/-- After the second dense region. -/
theorem out_dense2 : W7 m ρ c (Proc.devRef .tc main_v47)
    = dense (biasRelu (aggregate (dense (m ((c : Thread nD τ).loc main_arg0)) (m ((c : Thread nD τ).loc main_arg2))) (m ((c : Thread nD τ).loc main_arg1)))
        (m ((c : Thread nD τ).loc main_arg3))) (m ((c : Thread nD τ).loc main_arg4)) :=
  (W7_arr m ρ c 2).trans ((Dense.final2 (V6 m ρ) c).trans (congrArg₂ dense (out_relu m ρ c) (arg4_at6 m ρ c)))

/-- What the last region is handed. -/
theorem in_res : W8 m ρ c (Proc.devRef .tc main_v60)
    = aggregate (dense (biasRelu (aggregate (dense (m ((c : Thread nD τ).loc main_arg0)) (m ((c : Thread nD τ).loc main_arg2))) (m ((c : Thread nD τ).loc main_arg1)))
        (m ((c : Thread nD τ).loc main_arg3))) (m ((c : Thread nD τ).loc main_arg4))) (m ((c : Thread nD τ).loc main_arg1)) :=
  (agg_at8 m ρ c).trans (congrArg (fun h => aggregate h (m ((c : Thread nD τ).loc main_arg1))) (out_dense2 m ρ c))

/-- THE RESULT ARRAY at the run's last boundary. -/
theorem result_eq : W9 m ρ c (Proc.devRef .tc main_v61)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W9_arr m ρ c 3).trans ((Epilogue.final3 (V8 m ρ) c).trans
    (congr (congr (congrArg biasRes (in_res m ρ c)) (arg5_at8 m ρ c)) (arg0_at8 m ρ c)))

/-- THE RUN, READ: every weakly fair execution of @main terminates, nothing faulting, with the result array at
    `twoLayers` of the arguments as launched and the arguments unchanged. -/
theorem run : θ_run defs (onTc (τ := τ) (main (F := Ideal))) ⟨m, fun _ => 0, ρ⟩ (fun r => ∀ c : Dev nD,
      r.2.mem ((c.tc : Thread nD τ).loc main_v61)
        = twoLayers (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.GenRun.run_result m ρ)

end Cert.KernelIdeal.Result

end
-- ==== Proof.lean ====
/-
  A two-layer graph convolution with symmetric degree normalisation, a relu between the layers and a residual at the end,
  on 100 000 nodes with 64 features and 1 600 000 edges (one self loop per node appended):

      out = (A · (relu (A · (x W₁) + b₁) · W₂) + b₂) + x,     (A · h)[i] = Σ over edges j → i of norm(j, i) · h[j],
      norm(j, i) = dinv[j] · dinv[i],  dinv = deg^(-1/2) where deg > 0 and 0 elsewhere, deg = the in-degree.

  The kernel program runs the two linear maps `x W` and the two bias epilogues as tiled kernel regions (20 blocks of 5000
  nodes each) and everything that depends on the edge list — degree, weights, the gather at the sources, the scatter-add at
  the destinations — as the reference's own host operations. So on the extended reals the two programs are the same
  function: a row of `x W` reads only that row of `x`, so cutting the nodes into blocks changes no sum (the matrix unit's
  product into a zero accumulator is the host's dot_general, entry by entry); the bias row broadcast down a block is the
  bias row broadcast down the nodes; and the aggregation `A · h` is one shared chain of operations applied to equal
  features, carried as one function and never opened. No law used needs finite inputs, and no index of the edge list is
  assumed in range (both programs apply the same gather and scatter to the same indices).

  The frames of the two kernel programs are their generated frame certificates; the reference's frame is its run read
  back; nothing was idealized, so the idealization claim is trivial; the value claim puts the kernel's run
  (Proof/KernelValue.lean: the result array is `twoLayers` of the arguments) beside the reference's
  (Proof/Layer.lean `model_eq`: its result is the same term), from memories agreeing on the arguments.
-/
import proofs.«110208_j5153960755351_1_alg».proof.Defs
import proofs.«110208_j5153960755351_1_alg».proof.Proof.Gen.Kernel
import proofs.«110208_j5153960755351_1_alg».proof.Proof.Gen.Kernel.Skeleton
import proofs.«110208_j5153960755351_1_alg».proof.Proof.Gen.Kernel.Launch
import proofs.«110208_j5153960755351_1_alg».proof.Proof.Gen.Kernel.Points
import proofs.«110208_j5153960755351_1_alg».proof.Proof.Gen.Kernel.Frame
import proofs.«110208_j5153960755351_1_alg».proof.Proof.Gen.KernelIdeal
import proofs.«110208_j5153960755351_1_alg».proof.Proof.Gen.KernelIdeal.Skeleton
import proofs.«110208_j5153960755351_1_alg».proof.Proof.Gen.KernelIdeal.Launch
import proofs.«110208_j5153960755351_1_alg».proof.Proof.Gen.KernelIdeal.Points
import proofs.«110208_j5153960755351_1_alg».proof.Proof.Gen.KernelIdeal.Frame
import proofs.«110208_j5153960755351_1_alg».proof.Proof.Gen.ReferenceIdeal
import proofs.«110208_j5153960755351_1_alg».proof.Proof.RefRead
import proofs.«110208_j5153960755351_1_alg».proof.Proof.Layer
import proofs.«110208_j5153960755351_1_alg».proof.Proof.KernelValue
import proofs.«110208_j5153960755351_1_alg».proof.Proof.Gen.Pre_finite_inputs
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- No operation of the kernel was rewritten for the extended reals. -/
theorem preserves : Cert.preserves_Kernel_KernelIdeal := trivial

/-- From memories agreeing on the six arguments both programs end with the same result array, `twoLayers` of the
    arguments: the kernel by its run read region by region, the reference by its stages read layer by layer. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v92_eq, Cert.ReferenceIdeal.Layer.model_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
